-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S640000x128 : Shape := ⟨2, ![640000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S640000x128 : S_.BroadcastsInDim S640000x128 (![] : Fin 0 → Fin S640000x128.rank)
  reducesTo_S640000x128_S_d0_1 : S640000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S640000x128 .f32) (main_arg1 : IVec S640000 32) (main_arg2 : FVec F S128x128 .f32) (main_arg3 : FVec F S128 .f32) (main_arg4 : FVec F S128x128 .f32) (main_arg5 : FVec F S128 .f32) : IVec S_ 1 :=
  let main_v0 : FVec F S640000x128 .f32 := Host.absf main_arg0
  let main_cst : FVec F S_ .f32 := constant S_ .f32 0x7F800000#32
  let main_v1 : FVec F S640000x128 .f32 := broadcastInDim S640000x128 ![] bcast_S_S640000x128 main_cst
  let main_v2 : IVec S640000x128 1 := cmpf .olt main_v0 main_v1
  let main_c : IVec S_ 1 := constantI S_ 1 1#1
  let main_v3 : IVec S_ 1 := (fun x v => Host.reduce IntOp.andi x v reducesTo_S640000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S640000x128 : Shape := ⟨2, ![640000, 128]⟩
abbrev S640000 : Shape := ⟨1, ![640000]⟩
abbrev S128x128 : Shape := ⟨2, ![128, 128]⟩
abbrev S128 : Shape := ⟨1, ![128]⟩
abbrev S1x640000 : Shape := ⟨2, ![1, 640000]⟩
abbrev S1x128 : Shape := ⟨2, ![1, 128]⟩
abbrev S20480x128 : Shape := ⟨2, ![20480, 128]⟩
abbrev S1280x128 : Shape := ⟨2, ![1280, 128]⟩
abbrev S1x1280 : Shape := ⟨2, ![1, 1280]⟩
abbrev S2560x128 : Shape := ⟨2, ![2560, 128]⟩
abbrev S2560x1 : Shape := ⟨2, ![2560, 1]⟩
abbrev S2560x1280 : Shape := ⟨2, ![2560, 1280]⟩
abbrev S20000x128 : Shape := ⟨2, ![20000, 128]⟩

abbrev nBuf : Space → Nat
  | .hbm => 11
  | .vmem => 11
  | .smem => 0
  | _ => 0

abbrev bufTy : (tb : Table) → Fin (tcTables nBuf tb) → BufTy
  | .hbm, ⟨0, _⟩ => ⟨S640000x128, .f32⟩
  | .hbm, ⟨1, _⟩ => ⟨S640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x640000, .i32⟩
  | .hbm, ⟨7, _⟩ => ⟨S1x128, .f32⟩
  | .hbm, ⟨8, _⟩ => ⟨S1x128, .f32⟩
  | .hbm, ⟨9, _⟩ => ⟨S20480x128, .f32⟩
  | .hbm, ⟨10, _⟩ => ⟨S20000x128, .f32⟩
  | .local _ .vmem, ⟨0, _⟩ => ⟨S1280x128, .f32⟩
  | .local _ .vmem, ⟨1, _⟩ => ⟨S1280x128, .f32⟩
  | .local _ .vmem, ⟨2, _⟩ => ⟨S1x1280, .i32⟩
  | .local _ .vmem, ⟨3, _⟩ => ⟨S1x1280, .i32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2560x128, .f32⟩
  | .local _ .vmem, ⟨9, _⟩ => ⟨S2560x128, .f32⟩
  | .local _ .vmem, ⟨10, _⟩ => ⟨S2560x128, .f32⟩
  | _, _ => ⟨S640000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 500], ![false, false]⟩

def k0_cond2 (i : grid0.Coords) : BitVec 1 :=
  let arg1 : BitVec 32 := BitVec.ofNat 32 (i 1).val
  let c499_i32 : BitVec 32 := 499#32
  let v23 : BitVec 1 := Scalar.cmpi .eq arg1 c499_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1280x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1280 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2560x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S640000_S1x640000 : S640000.ShapeCasts S1x640000
  shapeCasts_S128_S1x128 : S128.ShapeCasts S1x128
  inb_S2560x128_S2560x128_0_0 : ∀ a, (![0, 0] : Fin 2 → Nat) a + S2560x128.size a ≤ S2560x128.size a
  h_S2560x128 : 0 < S2560x128.numel
  shapeCasts_S2560x128_S2560x128 : S2560x128.ShapeCasts S2560x128
  iota_S2560x1_d0_w32 : S2560x1.Iotas .tc 32 [0]
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S2560x1_S2560x1280 : S2560x1.Broadcasts S2560x1280
  broadcasts_S1x1280_S2560x1280 : S1x1280.Broadcasts S2560x1280
  natLt_1_32 : 1 < 32
  bitsLt_bf16_f32 : FTy.bits .bf16 < FTy.bits .f32
  inb_S1280x128_S1280x128_0_0 : ∀ a, (![0, 0] : Fin 2 → Nat) a + S1280x128.size a ≤ S1280x128.size a
  h_S1280x128 : 0 < S1280x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2560x128 : S1x128.Broadcasts S2560x128
  slices_S20480x128_S20000x128_0_0 : S20480x128.Slices ![0, 0] S20000x128
  dot_S2560x1280_S1280x128_S2560x128_1_0_0_1_n_n_wf : DotDims.WF S2560x1280 S1280x128 S2560x128 [1] [0] [0] [1] [] []
  dot_S2560x128_S128x128_S2560x128_1_0_0_1_n_n_wf : DotDims.WF S2560x128 S128x128 S2560x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x128.size a ≤ S640000x128.size a
  hwx0_0 : ∀ i : grid0.Coords, EltTy.bits .f32 = 32 ∨ (Rect.block (s := S640000x128) S1280x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1280.size a ≤ S1x640000.size a
  hwx0_1 : ∀ i : grid0.Coords, EltTy.bits .i32 = 32 ∨ (Rect.block (s := S1x640000) S1x1280.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2560x128.size a ≤ S20480x128.size a
  hwx0_6 : ∀ i : grid0.Coords, EltTy.bits .f32 = 32 ∨ (Rect.block (s := S20480x128) S2560x128.size (cc0_transform_6 i) (hinb0_6 i)).WholeWords (EltTy.packing .f32)

variable [Facts₀]

def dot_S2560x1280_S1280x128_S2560x128_1_0_0_1_n_n : DotDims S2560x1280 S1280x128 S2560x128 where
  lhsContracting := [1]
  rhsContracting := [0]
  lhsNonContracting := [0]
  rhsNonContracting := [1]
  lhsBatch := []
  rhsBatch := []
  wf := dot_S2560x1280_S1280x128_S2560x128_1_0_0_1_n_n_wf
def dot_S2560x128_S128x128_S2560x128_1_0_0_1_n_n : DotDims S2560x128 S128x128 S2560x128 where
  lhsContracting := [1]
  rhsContracting := [0]
  lhsNonContracting := [0]
  rhsNonContracting := [1]
  lhsBatch := []
  rhsBatch := []
  wf := dot_S2560x128_S128x128_S2560x128_1_0_0_1_n_n_wf

abbrev win0_0 : Pipeline.Window sig grid0 :=
  Pipeline.Window.ofSpec (Memref.whole main_arg0) S1280x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S2560x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S640000x128 : Shape := ⟨2, ![640000, 128]⟩
abbrev S640000 : Shape := ⟨1, ![640000]⟩
abbrev S128x128 : Shape := ⟨2, ![128, 128]⟩
abbrev S128 : Shape := ⟨1, ![128]⟩
abbrev S_ : Shape := ⟨0, ![]⟩
abbrev S20000x128 : Shape := ⟨2, ![20000, 128]⟩
abbrev S640000x1 : Shape := ⟨2, ![640000, 1]⟩
abbrev S1x128 : Shape := ⟨2, ![1, 128]⟩

abbrev nBuf : Space → Nat
  | .hbm => 21
  | .vmem => 0
  | .smem => 0
  | _ => 0

abbrev bufTy : (tb : Table) → Fin (tcTables nBuf tb) → BufTy
  | .hbm, ⟨0, _⟩ => ⟨S640000x128, .f32⟩
  | .hbm, ⟨1, _⟩ => ⟨S640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S_, .f32⟩
  | .hbm, ⟨7, _⟩ => ⟨S20000x128, .f32⟩
  | .hbm, ⟨8, _⟩ => ⟨S640000x1, .i32⟩
  | .hbm, ⟨9, _⟩ => ⟨S20000x128, .f32⟩
  | .hbm, ⟨10, _⟩ => ⟨S20000x128, .f32⟩
  | .hbm, ⟨11, _⟩ => ⟨S1x128, .f32⟩
  | .hbm, ⟨12, _⟩ => ⟨S20000x128, .f32⟩
  | .hbm, ⟨13, _⟩ => ⟨S20000x128, .f32⟩
  | .hbm, ⟨14, _⟩ => ⟨S_, .f32⟩
  | .hbm, ⟨15, _⟩ => ⟨S20000x128, .f32⟩
  | .hbm, ⟨16, _⟩ => ⟨S20000x128, .f32⟩
  | .hbm, ⟨17, _⟩ => ⟨S20000x128, .f32⟩
  | .hbm, ⟨18, _⟩ => ⟨S1x128, .f32⟩
  | .hbm, ⟨19, _⟩ => ⟨S20000x128, .f32⟩
  | .hbm, ⟨20, _⟩ => ⟨S20000x128, .f32⟩
  | _, _ => ⟨S640000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]

class Facts₀ : Prop where
  bcast_S_S20000x128 : S_.BroadcastsInDim S20000x128 (![] : Fin 0 → Fin S20000x128.rank)
  bcast_S640000_S640000x1_0 : S640000.BroadcastsInDim S640000x1 (![0] : Fin 1 → Fin S640000x1.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  scatter_S20000x128_S640000x1_S640000x128_1_0_0_1_wf : ScatterDims.WF S20000x128 S640000x1 S640000x128 [1] [0] [0] 1
  dot_S20000x128_S128x128_S20000x128_1_0_0_1_n_n_wf : DotDims.WF S20000x128 S128x128 S20000x128 [1] [0] [0] [1] [] []

variable [Facts₀]

def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf

class Facts : Prop extends Facts₀ where

variable [Facts]
-- ==== Proof.Pieces.lean ====
/-
  What each case of the kernel body leaves behind, as the body's pure payloads.

  The body has three cases by the edge-block coordinate. At the first edge block it stores the zero block into the
  accumulator and then the accumulation step over it; at the middle blocks only the accumulation step over what the
  previous point left; at the last block the accumulation step and then, into the output block, the perceptron of the
  accumulator just stored. Each store covers its whole buffer, so what a buffer holds afterwards is the last store's
  value, with every load read as the buffer's contents at that moment (a load after a covering store reads the value
  stored).
-/
import proofs.«414368_j34737695490534_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- Middle edge blocks: the accumulator ends at the accumulation step over its previous contents. -/
theorem scr_B (c : Dev nD) (i : grid0.Coords) (arg2 : Memref sig .tc .vmem S1280x128 .f32) (harg2 : arg2.IsWhole) (arg3 : Memref sig .tc .vmem S1x1280 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2560x128 .f32) (harg8 : arg8.IsWhole) (arg9 : Memref sig .tc .vmem S2560x128 .f32) (harg9 : arg9.IsWhole) (hc0 : ¬cond0_0 i) (hc1 : ¬cond0_1 i)
    (x0 : Vec F S1280x128 .f32) (x1 : Vec F S1x1280 .i32) (x2 : Vec F S128x128 .f32) (x3 : Vec F S1x128 .f32) (x4 : Vec F S128x128 .f32) (x5 : Vec F S1x128 .f32) (xs0 : Vec F S2560x128 .f32) :
    sout0_B_0 c i arg2 harg2 arg3 harg3 arg4 harg4 arg5 harg5 arg6 harg6 arg7 harg7 arg8 harg8 arg9 harg9 hc0 hc1 x0 x1 x2 x3 x4 x5 xs0 = k0_pay2 i x1 x0 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero hz]
  simp only [View.readAt_eq_ld, harg2.read_unread, harg3.read_unread, harg9.read_unread,
    View.ld_unit_zero (S := S1280x128) hz, View.ld_unit_zero (S := S1x1280) hz, View.ld_unit_zero (S := S2560x128) hz]

/-- Last edge block: the accumulator ends the same way … -/
theorem scr_C (c : Dev nD) (i : grid0.Coords) (arg2 : Memref sig .tc .vmem S1280x128 .f32) (harg2 : arg2.IsWhole) (arg3 : Memref sig .tc .vmem S1x1280 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2560x128 .f32) (harg8 : arg8.IsWhole) (arg9 : Memref sig .tc .vmem S2560x128 .f32) (harg9 : arg9.IsWhole) (hc0 : ¬cond0_0 i) (hc1 : cond0_1 i)
    (x0 : Vec F S1280x128 .f32) (x1 : Vec F S1x1280 .i32) (x2 : Vec F S128x128 .f32) (x3 : Vec F S1x128 .f32) (x4 : Vec F S128x128 .f32) (x5 : Vec F S1x128 .f32) (xs0 : Vec F S2560x128 .f32) :
    sout0_C_0 c i arg2 harg2 arg3 harg3 arg4 harg4 arg5 harg5 arg6 harg6 arg7 harg7 arg8 harg8 arg9 harg9 hc0 hc1 x0 x1 x2 x3 x4 x5 xs0 = k0_pay2 i x1 x0 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz]
  simp only [View.readAt_eq_ld, harg2.read_unread, harg3.read_unread, harg9.read_unread,
    View.ld_unit_zero (S := S1280x128) hz, View.ld_unit_zero (S := S1x1280) hz, View.ld_unit_zero (S := S2560x128) hz]

/-- … and the output block holds the perceptron of that accumulator and the four parameter blocks. -/
theorem out_C (c : Dev nD) (i : grid0.Coords) (arg2 : Memref sig .tc .vmem S1280x128 .f32) (harg2 : arg2.IsWhole) (arg3 : Memref sig .tc .vmem S1x1280 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2560x128 .f32) (harg8 : arg8.IsWhole) (arg9 : Memref sig .tc .vmem S2560x128 .f32) (harg9 : arg9.IsWhole) (hc0 : ¬cond0_0 i) (hc1 : cond0_1 i)
    (x0 : Vec F S1280x128 .f32) (x1 : Vec F S1x1280 .i32) (x2 : Vec F S128x128 .f32) (x3 : Vec F S1x128 .f32) (x4 : Vec F S128x128 .f32) (x5 : Vec F S1x128 .f32) (xs0 : Vec F S2560x128 .f32) :
    out0_C_6 c i arg2 harg2 arg3 harg3 arg4 harg4 arg5 harg5 arg6 harg6 arg7 harg7 arg8 harg8 arg9 harg9 hc0 hc1 x0 x1 x2 x3 x4 x5 xs0 = k0_pay3 (k0_pay2 i x1 x0 xs0) x2 x3 x4 x5 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread,
    harg6.read_unread, harg7.read_unread, harg9.read_unread, View.readCov_unit_zero (S := S2560x128) _ hz,
    View.ld_unit_zero (S := S1280x128) hz, View.ld_unit_zero (S := S1x1280) hz, View.ld_unit_zero (S := S2560x128) hz,
    View.ld_unit_zero (S := S128x128) hz, View.ld_unit_zero (S := S1x128) hz]

/-- First edge block: the accumulator ends at the accumulation step over the zero block just stored. -/
theorem scr_A (c : Dev nD) (i : grid0.Coords) (arg2 : Memref sig .tc .vmem S1280x128 .f32) (harg2 : arg2.IsWhole) (arg3 : Memref sig .tc .vmem S1x1280 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2560x128 .f32) (harg8 : arg8.IsWhole) (arg9 : Memref sig .tc .vmem S2560x128 .f32) (harg9 : arg9.IsWhole) (hc0 : cond0_0 i) (hc1 : ¬cond0_1 i)
    (x0 : Vec F S1280x128 .f32) (x1 : Vec F S1x1280 .i32) (x2 : Vec F S128x128 .f32) (x3 : Vec F S1x128 .f32) (x4 : Vec F S128x128 .f32) (x5 : Vec F S1x128 .f32) :
    sout0_A_0 c i arg2 harg2 arg3 harg3 arg4 harg4 arg5 harg5 arg6 harg6 arg7 harg7 arg8 harg8 arg9 harg9 hc0 hc1 x0 x1 x2 x3 x4 x5 = k0_pay2 i x1 x0 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S2560x128) hz, View.readCov_unit_zero (S := S2560x128) _ hz]
  simp only [View.readAt_eq_ld, harg2.read_unread, harg3.read_unread,
    View.ld_unit_zero (S := S1280x128) hz, View.ld_unit_zero (S := S1x1280) hz, View.ld_unit_zero (S := S2560x128) hz]

end Cert.KernelIdeal.Pieces

end
-- ==== Proof.Blocks.lean ====
/-
  Where a block's element sits in its array, and what the arrays the region finds hold.

  Grid point t is node block t / 500 and edge block t % 500 (the edge coordinate runs fastest). The edge rows are cut
  into 500 blocks of 1280 rows and the index words likewise, so element (e, q) of point t's edge block is row
  (t % 500) · 1280 + e of x, and word e of its index block is word (t % 500) · 1280 + e. The two weight matrices and
  the two bias rows are one block each, the same at every point. The output's block at point t is rows
  (t / 500) · 2560 … of the padded result. Before the region the index vector and the two bias vectors are reshaped
  to one-row matrices: row 0, column k of each is element k of the vector.
-/
import proofs.«414368_j34737695490534_1_alg».proof.Proof.Gen.KernelIdeal.Frame
import Idealize.ShloMosaic.Lib.Pipeline.Value
import Idealize.ShloMosaic.Lib.ValueLayout
import Idealize.ShloMosaic.Lib.ValueIdx
import Idealize.ShloMosaic.Lib.StableHlo.Run

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-! ## The grid and the index maps, decided over the 4000 points -/

theorem coords_facts : ∀ t : Fin cfg0.N, (grid0.coords t 0).val = t.val / 500 ∧ (grid0.coords t 1).val = t.val % 500 :=
  (by decide +kernel : ∀ t : Fin grid0.N, (grid0.coords t 0).val = t.val / 500 ∧ (grid0.coords t 1).val = t.val % 500)

theorem idx0 : ∀ t : Fin cfg0.N, win0_0.index t (0 : Fin 2) = t.val % 500 ∧ win0_0.index t (1 : Fin 2) = 0 :=
  (by decide +kernel : ∀ t : Fin grid0.N, win0_0.index t (0 : Fin 2) = t.val % 500 ∧ win0_0.index t (1 : Fin 2) = 0)
theorem idx1 : ∀ t : Fin cfg0.N, win0_1.index t (0 : Fin 2) = 0 ∧ win0_1.index t (1 : Fin 2) = t.val % 500 :=
  (by decide +kernel : ∀ t : Fin grid0.N, win0_1.index t (0 : Fin 2) = 0 ∧ win0_1.index t (1 : Fin 2) = t.val % 500)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = t.val / 500 ∧ win0_6.index t (1 : Fin 2) = 0 :=
  (by decide +kernel : ∀ t : Fin grid0.N, win0_6.index t (0 : Fin 2) = t.val / 500 ∧ win0_6.index t (1 : Fin 2) = 0)

/-! ## The input blocks, element by element -/

/-- Element (e, q) of point t's edge block is row (t % 500) · 1280 + e, column q of the edge array. -/
theorem xblk_apply (c : Dev nD) (t : Fin cfg0.N) (e : Fin 1280) (q : Fin 128) (he : t.val % 500 * 1280 + e.val < 640000) :
    (iblk m c 0 t : Vec F S1280x128 .f32) (ix2 e q)
      = (V m c main_arg0 : Vec F S640000x128 .f32) (ix2 ⟨t.val % 500 * 1280 + e.val, he⟩ q) := by
  unfold iblk
  rw [View.read_apply]
  show V m c main_arg0 _ = V m c main_arg0 _
  congr 1
  funext a
  apply Fin.ext
  match a with
  | ⟨0, _⟩ => show win0_0.index t 0 * 1280 + 1 * e.val = t.val % 500 * 1280 + e.val; rw [(idx0 t).1]; omega
  | ⟨1, _⟩ => show win0_0.index t 1 * 128 + 1 * q.val = q.val; rw [(idx0 t).2]; omega

/-- Word e of point t's index block is word (t % 500) · 1280 + e of the one-row index matrix. -/
theorem iblk_apply (c : Dev nD) (t : Fin cfg0.N) (e : Fin 1280) (he : t.val % 500 * 1280 + e.val < 640000) :
    (iblk m c 1 t : Vec F S1x1280 .i32) (ix2 (0 : Fin 1) e)
      = (V m c main_v0 : Vec F S1x640000 .i32) (ix2 (0 : Fin 1) ⟨t.val % 500 * 1280 + e.val, he⟩) := by
  unfold iblk
  rw [View.read_apply]
  show V m c main_v0 _ = V m c main_v0 _
  congr 1
  funext a
  apply Fin.ext
  match a with
  | ⟨0, _⟩ => show win0_1.index t 0 * 1 + 1 * 0 = 0; rw [(idx1 t).1]
  | ⟨1, _⟩ => show win0_1.index t 1 * 1280 + 1 * e.val = t.val % 500 * 1280 + e.val; rw [(idx1 t).2]; omega

/-- The first weight matrix's block is the matrix. -/
theorem w1blk_apply (c : Dev nD) (t : Fin cfg0.N) (a b : Fin 128) :
    (iblk m c 2 t : Vec F S128x128 .f32) (ix2 a b) = (V m c main_arg2 : Vec F S128x128 .f32) (ix2 a b) := by
  unfold iblk
  rw [View.read_apply]
  show V m c main_arg2 _ = V m c main_arg2 _
  congr 1
  funext d
  apply Fin.ext
  match d with
  | ⟨0, _⟩ => show win0_2.index t 0 * 128 + 1 * a.val = a.val; rw [(idx2 t).1]; omega
  | ⟨1, _⟩ => show win0_2.index t 1 * 128 + 1 * b.val = b.val; rw [(idx2 t).2]; omega

/-- The first bias row's block is the row. -/
theorem b1blk_apply (c : Dev nD) (t : Fin cfg0.N) (k : Fin 128) :
    (iblk m c 3 t : Vec F S1x128 .f32) (ix2 (0 : Fin 1) k) = (V m c main_v1 : Vec F S1x128 .f32) (ix2 (0 : Fin 1) k) := by
  unfold iblk
  rw [View.read_apply]
  show V m c main_v1 _ = V m c main_v1 _
  congr 1
  funext d
  apply Fin.ext
  match d with
  | ⟨0, _⟩ => show win0_3.index t 0 * 1 + 1 * 0 = 0; rw [(idx3 t).1]
  | ⟨1, _⟩ => show win0_3.index t 1 * 128 + 1 * k.val = k.val; rw [(idx3 t).2]; omega

/-- The second weight matrix's block is the matrix. -/
theorem w2blk_apply (c : Dev nD) (t : Fin cfg0.N) (a b : Fin 128) :
    (iblk m c 4 t : Vec F S128x128 .f32) (ix2 a b) = (V m c main_arg4 : Vec F S128x128 .f32) (ix2 a b) := by
  unfold iblk
  rw [View.read_apply]
  show V m c main_arg4 _ = V m c main_arg4 _
  congr 1
  funext d
  apply Fin.ext
  match d with
  | ⟨0, _⟩ => show win0_4.index t 0 * 128 + 1 * a.val = a.val; rw [(idx4 t).1]; omega
  | ⟨1, _⟩ => show win0_4.index t 1 * 128 + 1 * b.val = b.val; rw [(idx4 t).2]; omega

/-- The second bias row's block is the row. -/
theorem b2blk_apply (c : Dev nD) (t : Fin cfg0.N) (k : Fin 128) :
    (iblk m c 5 t : Vec F S1x128 .f32) (ix2 (0 : Fin 1) k) = (V m c main_v2 : Vec F S1x128 .f32) (ix2 (0 : Fin 1) k) := by
  unfold iblk
  rw [View.read_apply]
  show V m c main_v2 _ = V m c main_v2 _
  congr 1
  funext d
  apply Fin.ext
  match d with
  | ⟨0, _⟩ => show win0_5.index t 0 * 1 + 1 * 0 = 0; rw [(idx5 t).1]
  | ⟨1, _⟩ => show win0_5.index t 1 * 128 + 1 * k.val = k.val; rw [(idx5 t).2]; omega

/-! ## The reshaped vectors the region finds -/

/-- The one-row index matrix is the index vector: row 0, column e is word e. -/
theorem iarr_apply (c : Dev nD) (e : Fin 640000) :
    (V m c main_v0 : Vec F S1x640000 .i32) (ix2 (0 : Fin 1) e) = (m ((c : Thread nD τ).loc main_arg1) : Vec F S640000 .i32) (ix1 e) := by
  have h : (V m c main_v0 : Vec F S1x640000 .i32)
      = shapeCast S1x640000 (m ((c : Thread nD τ).loc main_arg1) : Vec F S640000 .i32) shapeCasts_S640000_S1x640000 := by
    show StableHlo.after hostOps0 (fun b => m (c, b)) (Proc.devRef .tc main_v0) = _
    after_results
    rfl
  rw [h]
  exact shapeCast_a_1a_apply _ shapeCasts_S640000_S1x640000 (0 : Fin 1) e

/-- The one-row first bias is the bias vector. -/
theorem b1arr_apply (c : Dev nD) (k : Fin 128) :
    (V m c main_v1 : Vec F S1x128 .f32) (ix2 (0 : Fin 1) k) = (m ((c : Thread nD τ).loc main_arg3) : Vec F S128 .f32) (ix1 k) := by
  have h : (V m c main_v1 : Vec F S1x128 .f32)
      = shapeCast S1x128 (m ((c : Thread nD τ).loc main_arg3) : Vec F S128 .f32) shapeCasts_S128_S1x128 := by
    show StableHlo.after hostOps0 (fun b => m (c, b)) (Proc.devRef .tc main_v1) = _
    after_results
    rfl
  rw [h]
  exact shapeCast_a_1a_apply _ shapeCasts_S128_S1x128 (0 : Fin 1) k

/-- The one-row second bias is the bias vector. -/
theorem b2arr_apply (c : Dev nD) (k : Fin 128) :
    (V m c main_v2 : Vec F S1x128 .f32) (ix2 (0 : Fin 1) k) = (m ((c : Thread nD τ).loc main_arg5) : Vec F S128 .f32) (ix1 k) := by
  have h : (V m c main_v2 : Vec F S1x128 .f32)
      = shapeCast S1x128 (m ((c : Thread nD τ).loc main_arg5) : Vec F S128 .f32) shapeCasts_S128_S1x128 := by
    show StableHlo.after hostOps0 (fun b => m (c, b)) (Proc.devRef .tc main_v2) = _
    after_results
    rfl
  rw [h]
  exact shapeCast_a_1a_apply _ shapeCasts_S128_S1x128 (0 : Fin 1) k

end Cert.KernelIdeal.Blocks

end
-- ==== Proof.Spec.lean ====
/-
  What the program computes, as one function of the argument arrays.

  Edge rows `x[e, :]` are summed into the node row their index word names, and a two-layer perceptron is applied to
  every node row:
      seg[n, d]  = the sum of x[e, d] over the edges e whose index word, read as a signed integer, is n
      out[n, j]  = (the sum over k of max(seg[n, :] · W1[:, k] + b1[k], 0) · W2[k, j]) + b2[j].
  An index word that names no node row (negative, or past the last row) contributes to no row.

  The segment sum has two spellings. The reference adds only the edge rows whose word is n (a sum over a filtered
  set). A one-hot product adds EVERY edge row, weighted by 1 where the word is n and by 0 elsewhere. On the extended
  reals 1 · v = v and 0 · v = 0 for every v, the infinities included, so the two are the same sum (`seg_eq_hot`):
  no finiteness of x is needed.
-/
import Idealize.ShloMosaic.PureOps.Ideal
import Idealize.ShloMosaic.PureOps.Ideal.Laws
import Idealize.ShloMosaic.Lib.ValueIdx

noncomputable section

namespace Cert.SegMlp

open Idealize.ShloMosaic Idealize.ShloMosaic.ValueIdx
open scoped BigOperators

/-- The value of the f32 zero word: the threshold of the rectifier. Kept as the word; both programs spell it so. -/
abbrev z32 : EReal := Ideal.ofBits .f32 0x00000000#32

/-- The one-hot weight of an index word `w` against node `n`: 1 when the word, read signed, is `n`, else 0. -/
def hot (w : BitVec 32) (n : ℕ) : EReal := if w.toInt = (n : ℤ) then 1 else 0

/-- Row `n`, column `d` of the segment sum of `E` edge rows: column `d` of the edge rows whose word is `n`. -/
def seg {E : ℕ} (x : FVec Ideal ⟨2, ![E, 128]⟩ .f32) (idx : Fin E → BitVec 32) (n : ℕ) (d : Fin 128) : EReal :=
  ∑ e ∈ Finset.univ.filter (fun e : Fin E => (idx e).toInt = (n : ℤ)), x (ix2 e d)

/-- The same sum over every edge row, each weighted by its one-hot weight. -/
theorem seg_eq_hot {E : ℕ} (x : FVec Ideal ⟨2, ![E, 128]⟩ .f32) (idx : Fin E → BitVec 32) (n : ℕ) (d : Fin 128) :
    seg x idx n d = ∑ e : Fin E, hot (idx e) n * x (ix2 e d) := by
  unfold seg hot
  rw [Finset.sum_filter]
  refine Finset.sum_congr rfl fun e _ => ?_
  by_cases h : (idx e).toInt = (n : ℤ)
  · rw [if_pos h, if_pos h, one_mul]
  · rw [if_neg h, if_neg h, zero_mul]

/-- The two-layer perceptron on one row `a`, at output column `j`. -/
def mlp (a : Fin 128 → EReal) (W1 : FVec Ideal ⟨2, ![128, 128]⟩ .f32) (b1 : Fin 128 → EReal)
    (W2 : FVec Ideal ⟨2, ![128, 128]⟩ .f32) (b2 : Fin 128 → EReal) (j : Fin 128) : EReal :=
  (∑ k : Fin 128, max ((∑ d : Fin 128, a d * W1 (ix2 d k)) + b1 k) z32 * W2 (ix2 k j)) + b2 j

/-- The result over `R` node rows, as one function of the six argument arrays. -/
def out (R : ℕ) (x : FVec Ideal ⟨2, ![640000, 128]⟩ .f32) (idx : IVec ⟨1, ![640000]⟩ 32)
    (W1 : FVec Ideal ⟨2, ![128, 128]⟩ .f32) (b1 : FVec Ideal ⟨1, ![128]⟩ .f32)
    (W2 : FVec Ideal ⟨2, ![128, 128]⟩ .f32) (b2 : FVec Ideal ⟨1, ![128]⟩ .f32) : FVec Ideal ⟨2, ![R, 128]⟩ .f32 :=
  fun i => mlp (fun d => seg x (fun e => idx (ix1 e)) (i 0).val d) W1 (fun k => b1 (ix1 k)) W2 (fun k => b2 (ix1 k)) (i 1)

/-- At `(n, j)` the result is the perceptron of row `n` of the segment sum, whatever the number of rows kept. -/
theorem out_apply (R : ℕ) (x : FVec Ideal ⟨2, ![640000, 128]⟩ .f32) (idx : IVec ⟨1, ![640000]⟩ 32)
    (W1 : FVec Ideal ⟨2, ![128, 128]⟩ .f32) (b1 : FVec Ideal ⟨1, ![128]⟩ .f32)
    (W2 : FVec Ideal ⟨2, ![128, 128]⟩ .f32) (b2 : FVec Ideal ⟨1, ![128]⟩ .f32) (n : Fin R) (j : Fin 128) :
    out R x idx W1 b1 W2 b2 (ix2 n j)
      = mlp (fun d => seg x (fun e => idx (ix1 e)) n.val d) W1 (fun k => b1 (ix1 k)) W2 (fun k => b2 (ix1 k)) j := rfl

end Cert.SegMlp

end
-- ==== Proof.LibPlainDot.lean ====
/-
  A matrix product contracted over ONE axis, read at an index.

  For an `A × K` left operand and a `K × B` right operand whose dimension numbers contract the left operand's
  second axis against the right operand's first (no batch axes), the contraction index has one coordinate
  `k : Fin K`, the left operand is read at `(p, k)` and the right one at `(k, q)`. So the sum over the contraction
  index that the product's value is stated with is the textbook `∑ k, f (p, k) · g (k, q)`, whatever the sizes.
  `eq_plain` identifies any record with these dimension numbers with the library's `DotDims.plain`, for which the
  two operand indices compute.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx
open scoped BigOperators

variable {A K B : Nat}

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

/-- The contraction shape has one axis … -/
theorem plain_rank : (DotDims.plain A K B).contr.rank = 1 := rfl
/-- … of extent `K`. -/
theorem plain_size : (DotDims.plain A K B).contr.size ⟨0, by rw [plain_rank]; exact Nat.one_pos⟩ = K := rfl

/-- At result index `(p, q)` and contraction coordinate `k` the left operand is read at `(p, k)`. -/
theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

/-- At result index `(p, q)` and contraction coordinate `k` the right operand is read at `(k, q)`. -/
theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A block product into the zero accumulator, at `(p, q)`: `∑ k, lhs (p, k) · rhs (k, q)`. -/
theorem matmul_zero_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-- The host's product at `(p, q)`, whatever its schedule key: the same sum. -/
theorem dotGeneral_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ .f32) (rhs : FVec Ideal ⟨2, ![K, B]⟩ .f32)
    (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.Payload.lean ====
/-
  The body's three stored values, read at one element, at the ideal instance.

  • The reset stores the zero block.
  • The accumulation step stores, at row p and column q of the node block, the previous value plus the product of the
    one-hot selector row with the edge block's column: the selector entry for node row p and edge e is 1 exactly when
    the edge's index word equals the node's number (the block's first node number plus p), so the product is the sum
    over the block's 1280 edges of the one-hot weight times the edge row's column q. The narrowing to bf16 is the
    identity on extended reals.
  • The last step stores the two-layer perceptron of the accumulated row.
-/
import proofs.«414368_j34737695490534_1_alg».proof.Proof.Gen.KernelIdeal.Skeleton
import proofs.«414368_j34737695490534_1_alg».proof.Proof.Spec
import proofs.«414368_j34737695490534_1_alg».proof.Proof.LibPlainDot
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Payload

open Idealize.ShloMosaic Idealize.ShloMosaic.ValueIdx
open Cert.KernelIdeal Cert.KernelIdeal.Gen Cert.SegMlp
open scoped BigOperators

/-! ## Words: the node's number as a 32-bit word, and the selector's entry -/

/-- The block's first node number times the block height plus the row, computed on 32-bit words, is the word of the
    number computed on naturals. -/
private theorem node_word (a p : ℕ) :
    BitVec.ofNat 32 a * 2560#32 + BitVec.ofNat 32 p = BitVec.ofNat 32 (a * 2560 + p) := by
  apply BitVec.eq_of_toNat_eq
  simp only [BitVec.toNat_add, BitVec.toNat_mul, BitVec.toNat_ofNat]
  omega

/-- A number below 2³¹, as a 32-bit word read signed, is the number. -/
private theorem toInt_small (n : ℕ) (hn : n < 2 ^ 31) : (BitVec.ofNat 32 n).toInt = (n : ℤ) := by
  have e := BitVec.toInt_eq_toNat_cond (BitVec.ofNat 32 n)
  rw [BitVec.toNat_ofNat] at e
  omega

private theorem bit_true : ((BitVec.ofBool true).setWidth 32).toInt = 1 := by decide
private theorem bit_false : ((BitVec.ofBool false).setWidth 32).toInt = 0 := by decide

/-- The selector's entry: the one-bit equality of the node's word and an index word, widened and converted, is the
    one-hot weight of the index word against the node's number (two words are equal exactly when their signed
    readings are). -/
private theorem sel_eq (n : ℕ) (hn : n < 2 ^ 31) (w : BitVec 32) :
    (((((BitVec.ofBool (BitVec.ofNat 32 n == w)).setWidth 32).toInt : ℤ) : ℝ) : EReal) = hot w n := by
  delta hot
  by_cases h : BitVec.ofNat 32 n = w
  · subst h
    rw [if_pos (toInt_small n hn), beq_self_eq_true, bit_true, Int.cast_one, EReal.coe_one]
  · have hne : ¬ w.toInt = (n : ℤ) := fun e => h (BitVec.eq_of_toInt_eq (by rw [toInt_small n hn, e]))
    have hb : (BitVec.ofNat 32 n == w) = false := beq_eq_false_iff_ne.mpr h
    rw [if_neg hne, hb, bit_false, Int.cast_zero, EReal.coe_zero]

/-! ## The three stored values -/

/-- The reset's block is zero everywhere. -/
theorem pay1_apply (j : S2560x128.Idx) : (k0_pay1 (F := Ideal)) j = 0 := by
  delta k0_pay1
  refine (congrFun (shapeCast_self _ _) j).trans ?_
  exact Ideal.ofBits_zero_f32

/-- A one-row array, cast to its own shape and broadcast down the rows, reads its one row. -/
private theorem row_bcast {α : Type} {a b : ℕ} (v : (⟨2, ![1, b]⟩ : Shape).Idx → α)
    (hc : (⟨2, ![1, b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hc) hb (ix2 p c) = v (ix2 (0 : Fin 1) c) := by
  rw [shapeCast_self]
  exact broadcastTo_1b_ab_apply v hb p c

/-- A one-column array broadcast along the rows reads its entry of the row. -/
private theorem col_bcast {α : Type} {a b : ℕ} (v : (⟨2, ![a, 1]⟩ : Shape).Idx → α)
    (hb : (⟨2, ![a, 1]⟩ : Shape).Broadcasts ⟨2, ![a, b]⟩) (p : Fin a) (c : Fin b) :
    broadcastTo ⟨2, ![a, b]⟩ v hb (ix2 p c) = v (ix2 p (0 : Fin 1)) := by
  refine broadcastTo_apply v hb (ix2 p c) (ix2 p (0 : Fin 1)) fun ax => ?_
  match ax with
  | ⟨0, _⟩ =>
    show p.val = if a = 1 then 0 else p.val
    split
    · have := p.isLt; omega
    · rfl
  | ⟨1, _⟩ => rfl

/-- The selector read at an index: where the node array holds the word of a number `n` below 2³¹ and the index array
    holds `w`, the widened, converted and narrowed equality bit is the one-hot weight of `w` against `n`. -/
private theorem sel_apply {s : Shape} (x y : IVec s 32) (h1 : 1 < 32) (hb : FTy.bits .bf16 < FTy.bits .f32) (j : s.Idx)
    (n : ℕ) (hn : n < 2 ^ 31) (w : BitVec 32) (hx : x j = BitVec.ofNat 32 n) (hy : y j = w) :
    (truncf .bf16 (sitofp (F := Ideal) .f32 (extui 32 (cmpi .eq x y) h1)) hb) j = hot w n := by
  refine Eq.trans ?_ (sel_eq n hn w)
  show (((((BitVec.ofBool (x j == y j)).setWidth 32).toInt : ℤ) : ℝ) : EReal) = _
  rw [hx, hy]

/-- The accumulation step at `(p, q)`: the previous value plus the one-hot product over the block's edges. The node
    number of row `p` in node block `i 0` is `(i 0) * 2560 + p`. -/
theorem pay2_apply (i : grid0.Coords) (v7 : IVec S1x1280 32) (v15 : FVec Ideal S1280x128 .f32)
    (v18 : FVec Ideal S2560x128 .f32) (p : Fin 2560) (q : Fin 128) :
    k0_pay2 (F := Ideal) i v7 v15 v18 (ix2 p q)
      = v18 (ix2 p q) + ∑ e : Fin 1280, hot (v7 (ix2 (0 : Fin 1) e)) ((i 0).val * 2560 + p.val) * v15 (ix2 e q) := by
  have h8 : (i 0).val < 8 := (i 0).isLt
  have hp : p.val < 2560 := p.isLt
  delta k0_pay2
  refine (congrFun (shapeCast_self _ _) (ix2 p q)).trans ?_
  refine (addf_apply _ _ (ix2 p q)).trans ?_
  refine congrArg (v18 (ix2 p q) + ·) ?_
  refine (Cert.LibPlainDot.matmul_zero_apply _ rfl rfl rfl rfl rfl rfl none _ _ p q).trans ?_
  refine Finset.sum_congr rfl fun e _ => ?_
  refine congrArg₂ (· * ·) ?_ rfl
  refine sel_apply _ _ _ _ (ix2 p e) ((i 0).val * 2560 + p.val) (by omega) (v7 (ix2 (0 : Fin 1) e)) ?_ (row_bcast v7 _ _ p e)
  refine (col_bcast _ _ p e).trans ?_
  show BitVec.ofNat 32 (i 0).val * 2560#32 + iota .tc S2560x1 32 [0] Facts₀.iota_S2560x1_d0_w32 (ix2 p (0 : Fin 1)) = _
  rw [iota_single_apply]
  exact node_word _ _

/-- The last step at `(p, q)`: the perceptron of row `p` of the accumulated block. -/
theorem pay3_apply (v26 : FVec Ideal S2560x128 .f32) (v28 : FVec Ideal S128x128 .f32) (v31 : FVec Ideal S1x128 .f32)
    (v38 : FVec Ideal S128x128 .f32) (v41 : FVec Ideal S1x128 .f32) (p : Fin 2560) (q : Fin 128) :
    k0_pay3 (F := Ideal) v26 v28 v31 v38 v41 (ix2 p q)
      = mlp (fun d => v26 (ix2 p d)) v28 (fun k => v31 (ix2 (0 : Fin 1) k)) v38 (fun k => v41 (ix2 (0 : Fin 1) k)) q := by
  delta k0_pay3 mlp
  refine (addf_apply _ _ (ix2 p q)).trans ?_
  refine congrArg₂ (· + ·) ?_ (row_bcast _ _ _ p q)
  refine (Cert.LibPlainDot.matmul_zero_apply _ rfl rfl rfl rfl rfl rfl none _ _ p q).trans ?_
  refine Finset.sum_congr rfl fun k _ => ?_
  refine congrArg₂ (· * ·) ?_ rfl
  refine (maximumf_apply _ _ (ix2 p k)).trans ?_
  refine congrArg₂ max ?_ rfl
  refine (addf_apply _ _ (ix2 p k)).trans ?_
  refine congrArg₂ (· + ·) ?_ (row_bcast _ _ _ p k)
  exact Cert.LibPlainDot.matmul_zero_apply _ rfl rfl rfl rfl rfl rfl none _ _ p k

end Cert.KernelIdeal.Payload

end
-- ==== Proof.LibBlockSum.lean ====
/-
  Sums over blocks of consecutive indices, and running sums: a sum over B blocks of S consecutive indices is the sum
  over all B·S indices; a sequence that starts at its first term and adds one more term at each step is the partial sum.
-/
import Mathlib.Algebra.BigOperators.Fin
import Mathlib.Data.Fintype.BigOperators
import Mathlib.Logic.Equiv.Fin.Basic

namespace Cert.BlockSum

open scoped BigOperators

/-- The `r`-th index of the `b`-th block of `S` consecutive indices, among `B` blocks, is below `B * S`. -/
theorem block_lt {B S : ℕ} (b : Fin B) (r : Fin S) : S * b.val + r.val < B * S :=
  calc S * b.val + r.val < S * b.val + S := Nat.add_lt_add_left r.isLt _
    _ = S * (b.val + 1) := (Nat.mul_succ _ _).symm
    _ ≤ S * B := Nat.mul_le_mul_left _ b.isLt
    _ = B * S := Nat.mul_comm _ _

/-- A sum over `B` blocks of `S` consecutive indices is the sum over all `B * S` indices: every index below
    `B * S` is `S * b + r` for exactly one block `b` and one offset `r`. -/
theorem sum_blocks {M : Type*} [AddCommMonoid M] (B S : ℕ) (f : Fin (B * S) → M) :
    ∑ b : Fin B, ∑ r : Fin S, f ⟨S * b.val + r.val, block_lt b r⟩ = ∑ n : Fin (B * S), f n := by
  rw [← finProdFinEquiv.sum_comp, Fintype.sum_prod_type]
  refine Finset.sum_congr rfl fun b _ => Finset.sum_congr rfl fun r _ => ?_
  exact congrArg f (Fin.ext (Nat.add_comm _ _))

/-- Twelve blocks of 1024 consecutive indices make up the 12288 indices. -/
theorem sum_12x1024 {M : Type*} [AddCommMonoid M] (f : Fin 12288 → M) :
    ∑ b : Fin 12, ∑ r : Fin 1024, f ⟨1024 * b.val + r.val, by omega⟩ = ∑ n : Fin 12288, f n :=
  sum_blocks 12 1024 f

/-- Four blocks of 1536 consecutive indices make up the 6144 indices. -/
theorem sum_4x1536 {M : Type*} [AddCommMonoid M] (f : Fin 6144 → M) :
    ∑ b : Fin 4, ∑ r : Fin 1536, f ⟨1536 * b.val + r.val, by omega⟩ = ∑ n : Fin 6144, f n :=
  sum_blocks 4 1536 f

/-- A running sum from its first term: if `a 0 = g 0` and `a (j + 1) = a j + g (j + 1)` for every `j`, then
    `a j` is the sum of `g` over the first `j + 1` indices. -/
theorem running_sum {M : Type*} [AddCommMonoid M] (a g : ℕ → M) (h0 : a 0 = g 0)
    (hs : ∀ j, a (j + 1) = a j + g (j + 1)) (j : ℕ) : a j = ∑ i ∈ Finset.range (j + 1), g i := by
  induction j with
  | zero => rw [h0, Finset.sum_range_one]
  | succ j ih => rw [hs, ih, Finset.sum_range_succ _ (j + 1)]

/-- The sum over the first twelve naturals is the sum over `Fin 12`. -/
theorem sum_range_12 {M : Type*} [AddCommMonoid M] (g : ℕ → M) :
    ∑ i ∈ Finset.range 12, g i = ∑ b : Fin 12, g b.val :=
  Finset.sum_range g

/-- The sum over the first four naturals is the sum over `Fin 4`. -/
theorem sum_range_4 {M : Type*} [AddCommMonoid M] (g : ℕ → M) :
    ∑ i ∈ Finset.range 4, g i = ∑ b : Fin 4, g b.val :=
  Finset.sum_range g

end Cert.BlockSum
-- ==== Proof.Accum.lean ====
/-
  The accumulator along the grid, and the output block it ends in.

  Fix a node block nb. Its 500 grid points run through the edge blocks in order. The first point resets the
  accumulator to zero and adds edge block 0's one-hot product; each later point adds its own edge block's product to
  what the point before left. So after edge block k the accumulator's element (p, q) is the sum over the edge blocks
  0 … k of that block's contribution to node nb · 2560 + p (`scratch_eq`, by induction on the point; the zero block
  contributes 0 + ·). After the last edge block the 500 block sums together run over all 640000 edges: the one-hot
  form of the segment sum, which is the filtered form (`sum_terms`). At that point the output block is the
  perceptron of the accumulator's rows with the two weight matrices and the two bias rows (`out_block`): the
  specification's rows nb · 2560 … of the padded result.
-/
import proofs.«414368_j34737695490534_1_alg».proof.Proof.Pieces
import proofs.«414368_j34737695490534_1_alg».proof.Proof.Blocks
import proofs.«414368_j34737695490534_1_alg».proof.Proof.Payload
import proofs.«414368_j34737695490534_1_alg».proof.Proof.Spec
import proofs.«414368_j34737695490534_1_alg».proof.Proof.LibBlockSum

noncomputable section

namespace Cert.KernelIdeal.Accum

open Idealize.ShloMosaic Idealize.ShloMosaic.TcCoe Idealize.SL.Sem Idealize.ShloMosaic.ValueIdx
open Cert.KernelIdeal Cert.KernelIdeal.Gen Cert.SegMlp
open scoped BigOperators

variable (m : (ℓ : Loc nD τ sig) → Buf (Elt Ideal) ℓ)

/-! ## The argument arrays on a core, at their literal types -/

abbrev xA (c : Dev nD) : FVec Ideal ⟨2, ![640000, 128]⟩ .f32 := m ((c : Thread nD τ).loc main_arg0)
abbrev iA (c : Dev nD) : IVec ⟨1, ![640000]⟩ 32 := m ((c : Thread nD τ).loc main_arg1)
abbrev w1A (c : Dev nD) : FVec Ideal ⟨2, ![128, 128]⟩ .f32 := m ((c : Thread nD τ).loc main_arg2)
abbrev b1A (c : Dev nD) : FVec Ideal ⟨1, ![128]⟩ .f32 := m ((c : Thread nD τ).loc main_arg3)
abbrev w2A (c : Dev nD) : FVec Ideal ⟨2, ![128, 128]⟩ .f32 := m ((c : Thread nD τ).loc main_arg4)
abbrev b2A (c : Dev nD) : FVec Ideal ⟨1, ![128]⟩ .f32 := m ((c : Thread nD τ).loc main_arg5)

/-! ## What each point leaves, as payloads -/

/-- A first edge block's point leaves the accumulation step over the zero block. -/
theorem scrAt_A (c : Dev nD) (t : Fin cfg0.N) (h0 : t.val % 500 = 0) (h1 : ¬t.val % 500 = 499) :
    (outsAt0 m c t.val t.isLt).2
      = k0_pay2 (F := Ideal) (grid0.coords t) (iblk m c 1 t) (iblk m c 0 t) (k0_pay1 (F := Ideal)) := by
  rw [outsAt0_A m c t h0 h1]
  dsimp only
  exact Pieces.scr_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)

/-- A middle edge block's point leaves the accumulation step over what the point before left. -/
theorem scrAt_B (c : Dev nD) (t : Fin cfg0.N) (h0 : ¬t.val % 500 = 0) (h1 : ¬t.val % 500 = 499) :
    (outsAt0 m c t.val t.isLt).2
      = k0_pay2 (F := Ideal) (grid0.coords t) (iblk m c 1 t) (iblk m c 0 t) (outsAt0 m c (t.val - 1) (Nat.lt_of_le_of_lt (Nat.sub_le _ _) t.isLt)).2 := by
  rw [outsAt0_B m c t h0 h1]
  dsimp only
  exact Pieces.scr_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2

/-- The last edge block's point leaves the same in the accumulator … -/
theorem scrAt_C (c : Dev nD) (t : Fin cfg0.N) (h0 : ¬t.val % 500 = 0) (h1 : t.val % 500 = 499) :
    (outsAt0 m c t.val t.isLt).2
      = k0_pay2 (F := Ideal) (grid0.coords t) (iblk m c 1 t) (iblk m c 0 t) (outsAt0 m c (t.val - 1) (Nat.lt_of_le_of_lt (Nat.sub_le _ _) t.isLt)).2 := by
  rw [outsAt0_C m c t h0 h1]
  dsimp only
  exact Pieces.scr_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2

/-- … and the perceptron of that accumulator in the output block. -/
theorem outAt_C (c : Dev nD) (t : Fin cfg0.N) (h0 : ¬t.val % 500 = 0) (h1 : t.val % 500 = 499) :
    (outsAt0 m c t.val t.isLt).1
      = k0_pay3 (F := Ideal) (outsAt0 m c t.val t.isLt).2 (iblk m c 2 t) (iblk m c 3 t) (iblk m c 4 t) (iblk m c 5 t) := by
  rw [scrAt_C m c t h0 h1, outsAt0_C m c t h0 h1]
  dsimp only
  exact Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2

/-! ## One edge block's contribution -/

theorem lt_edges {b : ℕ} (hb : b < 500) (e : Fin 1280) : b * 1280 + e.val < 640000 := by
  have := e.isLt; omega

/-- Edge block `b`'s contribution to node `n`, column `q`: its 1280 edge rows' column `q`, each weighted by the
    one-hot weight of its index word against `n` (nothing past the 500th block). -/
def term (c : Dev nD) (n : ℕ) (q : Fin 128) (b : ℕ) : EReal :=
  if hb : b < 500 then
    ∑ e : Fin 1280, hot (iA m c (ix1 ⟨b * 1280 + e.val, lt_edges hb e⟩)) n * xA m c (ix2 ⟨b * 1280 + e.val, lt_edges hb e⟩ q)
  else 0

/-- The accumulation step at point `t`, element (p, q): the accumulator plus the point's edge block's contribution
    to node (t / 500) · 2560 + p. -/
theorem step_apply (c : Dev nD) (t : Fin cfg0.N) (acc : FVec Ideal S2560x128 .f32) (p : Fin 2560) (q : Fin 128) :
    k0_pay2 (F := Ideal) (grid0.coords t) (iblk m c 1 t) (iblk m c 0 t) acc (ix2 p q)
      = acc (ix2 p q) + term m c (t.val / 500 * 2560 + p.val) q (t.val % 500) := by
  refine (Payload.pay2_apply (grid0.coords t) (iblk m c 1 t) (iblk m c 0 t) acc p q).trans ?_
  have hb : t.val % 500 < 500 := Nat.mod_lt _ (by norm_num)
  unfold term
  rw [dif_pos hb, (Blocks.coords_facts t).1]
  refine congrArg (acc (ix2 p q) + ·) (Finset.sum_congr rfl fun e _ => ?_)
  rw [Blocks.iblk_apply m c t e (lt_edges hb e), Blocks.iarr_apply m c, Blocks.xblk_apply m c t e q (lt_edges hb e),
    V_main_arg0 m c]

/-! ## The running sum -/

/-- After point `n` the accumulator's element (p, q) is the sum of the contributions of the edge blocks
    0 … n % 500 to node (n / 500) · 2560 + p. -/
theorem scratch_eq (c : Dev nD) : ∀ (n : ℕ) (h : n < cfg0.N) (p : Fin 2560) (q : Fin 128),
    (outsAt0 m c n h).2 (ix2 p q) = ∑ b ∈ Finset.range (n % 500 + 1), term m c (n / 500 * 2560 + p.val) q b := by
  intro n
  induction n with
  | zero =>
    intro h p q
    have e := scrAt_A m c ⟨0, h⟩ (show (0 : ℕ) % 500 = 0 from rfl) (show ¬(0 : ℕ) % 500 = 499 by decide)
    have e' : (outsAt0 m c 0 h).2 (ix2 p q) = _ := congrFun e (ix2 p q)
    rw [e', step_apply m c ⟨0, h⟩ _ p q, Payload.pay1_apply, zero_add]
    show term m c (0 / 500 * 2560 + p.val) q (0 % 500) = _
    rw [Nat.zero_mod]
    exact (Finset.sum_range_one _).symm
  | succ n ih =>
    intro h p q
    have hN : n + 1 < 4000 := lt_of_lt_of_eq h (show cfg0.N = 4000 from N_0)
    by_cases h0 : (n + 1) % 500 = 0
    · have h1 : ¬(n + 1) % 500 = 499 := by omega
      have e := scrAt_A m c ⟨n + 1, h⟩ h0 h1
      have e' : (outsAt0 m c (n + 1) h).2 (ix2 p q) = _ := congrFun e (ix2 p q)
      rw [e', step_apply m c ⟨n + 1, h⟩ _ p q, Payload.pay1_apply, zero_add]
      show term m c ((n + 1) / 500 * 2560 + p.val) q ((n + 1) % 500) = _
      rw [h0]
      exact (Finset.sum_range_one _).symm
    · have hd : (n + 1) / 500 = n / 500 := by omega
      have hm : (n + 1) % 500 = n % 500 + 1 := by omega
      have e : (outsAt0 m c (n + 1) h).2
          = k0_pay2 (F := Ideal) (grid0.coords ⟨n + 1, h⟩) (iblk m c 1 ⟨n + 1, h⟩) (iblk m c 0 ⟨n + 1, h⟩)
              (outsAt0 m c n (Nat.lt_of_succ_lt h)).2 := by
        by_cases h1 : (n + 1) % 500 = 499
        · exact scrAt_C m c ⟨n + 1, h⟩ h0 h1
        · exact scrAt_B m c ⟨n + 1, h⟩ h0 h1
      have e' : (outsAt0 m c (n + 1) h).2 (ix2 p q) = _ := congrFun e (ix2 p q)
      rw [e', step_apply m c ⟨n + 1, h⟩ _ p q, ih (Nat.lt_of_succ_lt h) p q]
      show _ + term m c ((n + 1) / 500 * 2560 + p.val) q ((n + 1) % 500) = _
      rw [hd, hm]
      exact (Finset.sum_range_succ _ _).symm

/-! ## All 500 edge blocks: the segment sum -/

/-- The 500 block contributions to node `n`, column `d`, are the segment sum over all 640000 edges. -/
theorem sum_terms (c : Dev nD) (n : ℕ) (d : Fin 128) :
    ∑ b ∈ Finset.range 500, term m c n d b = seg (xA m c) (fun e => iA m c (ix1 e)) n d := by
  rw [seg_eq_hot, Finset.sum_range]
  refine Eq.trans (Finset.sum_congr rfl fun b _ => ?_)
    (Cert.BlockSum.sum_blocks 500 1280 (fun k : Fin 640000 => hot (iA m c (ix1 k)) n * xA m c (ix2 k d)))
  unfold term
  rw [dif_pos b.isLt]
  refine Finset.sum_congr rfl fun e _ => ?_
  have he : (⟨b.val * 1280 + e.val, lt_edges b.isLt e⟩ : Fin 640000) = ⟨1280 * b.val + e.val, Cert.BlockSum.block_lt b e⟩ :=
    Fin.ext (by show b.val * 1280 + e.val = 1280 * b.val + e.val; omega)
  rw [he]

/-! ## The output block at a node block's last point -/

/-- The perceptron depends on its row, matrices and bias rows only through their elements. -/
theorem mlp_congr {a a' : Fin 128 → EReal} {W1 W1' W2 W2' : FVec Ideal ⟨2, ![128, 128]⟩ .f32} {b1 b1' b2 b2' : Fin 128 → EReal}
    (ha : ∀ d, a d = a' d) (hW1 : ∀ d k, W1 (ix2 d k) = W1' (ix2 d k)) (hb1 : ∀ k, b1 k = b1' k)
    (hW2 : ∀ k j, W2 (ix2 k j) = W2' (ix2 k j)) (hb2 : ∀ j, b2 j = b2' j) (j : Fin 128) :
    mlp a W1 b1 W2 b2 j = mlp a' W1' b1' W2' b2' j := by
  unfold mlp
  rw [hb2 j]
  refine congrArg (· + b2' j) (Finset.sum_congr rfl fun k _ => ?_)
  rw [hW2 k j, hb1 k]
  refine congrArg (fun s => max (s + b1' k) z32 * W2' (ix2 k j)) (Finset.sum_congr rfl fun d _ => ?_)
  rw [ha d, hW1 d k]

/-- At the last point of node block t / 500 the output block's element (p, q) is the specification at node
    (t / 500) · 2560 + p, column q. -/
theorem out_block (c : Dev nD) (t : Fin cfg0.N) (h1 : t.val % 500 = 499) (p : Fin 2560) (q : Fin 128)
    (hn : t.val / 500 * 2560 + p.val < 20480) :
    (outsAt0 m c t.val t.isLt).1 (ix2 p q)
      = out 20480 (xA m c) (iA m c) (w1A m c) (b1A m c) (w2A m c) (b2A m c) (ix2 ⟨t.val / 500 * 2560 + p.val, hn⟩ q) := by
  have h0 : ¬t.val % 500 = 0 := by omega
  have e := outAt_C m c t h0 h1
  have e' : (outsAt0 m c t.val t.isLt).1 (ix2 p q) = _ := congrFun e (ix2 p q)
  rw [e', out_apply]
  refine (Payload.pay3_apply (outsAt0 m c t.val t.isLt).2 (iblk m c 2 t) (iblk m c 3 t) (iblk m c 4 t) (iblk m c 5 t) p q).trans ?_
  refine mlp_congr (fun d => ?_) (fun d k => ?_) (fun k => ?_) (fun k j => ?_) (fun j => ?_) q
  · rw [scratch_eq m c t.val t.isLt p d, h1]
    exact sum_terms m c _ d
  · exact (Blocks.w1blk_apply m c t d k).trans (congrFun (V_main_arg2 m c) _)
  · exact (Blocks.b1blk_apply m c t k).trans (Blocks.b1arr_apply m c k)
  · exact (Blocks.w2blk_apply m c t k j).trans (congrFun (V_main_arg4 m c) _)
  · exact (Blocks.b2blk_apply m c t j).trans (Blocks.b2arr_apply m c j)

end Cert.KernelIdeal.Accum

end
-- ==== Proof.KValue.lean ====
/-
  The kernel's result array, and the run read with it.

  Output blocks are written back only at a node block's last point. What point t = nb · 500 + 499 writes back is rows
  nb · 2560 … nb · 2560 + 2559 of the specification over the padded 20480 rows (`flushed_eq`, from the output block's
  value); row r of the padded array lies in the block of point (r / 2560) · 500 + 499 (`cover`); so after the run the
  padded array is the specification over 20480 rows (`final`). The program then keeps rows 0 … 19999: a row's value
  does not depend on how many rows are kept (`slice_out`), so the result is the specification over 20000 rows.
-/
import proofs.«414368_j34737695490534_1_alg».proof.Proof.Accum
import Idealize.ShloMosaic.Lib.Pipeline.Value
import Idealize.ShloMosaic.Lib.StableHlo.Run

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Accum Cert.SegMlp

variable (m : (ℓ : Loc nD τ sig) → Buf (Elt Ideal) ℓ) (ρ : Dev nD → PrngReg)

/-- The specification over the padded 20480 rows, as contents of the region's result array. -/
abbrev Gpad (c : Dev nD) : Buf (Elt Ideal) ((c : Thread nD τ).loc main_v3) :=
  out 20480 (xA m c) (iA m c) (w1A m c) (b1A m c) (w2A m c) (b2A m c)

/-- What a flushing point writes back is its block of the padded specification. -/
theorem flushed_eq (c : Dev nD) (t : Fin cfg0.N) (hf : (cfg0.win 6).flush t = true) :
    (dats m 0 c).flushed 6 t = ((cfg0.win 6).blk t).view.read (Elt Ideal) (Gpad m c) := by
  have h1 : t.val % 500 = 499 := (flush0_6 t).mp hf
  have hN : t.val < 4000 := lt_of_lt_of_eq t.isLt (show cfg0.N = 4000 from N_0)
  show (cfg0.win 6).cut (grid0.coords t) ((dats m 0 c).after 6 t) = _
  rw [after0_6]
  funext j
  show (outsAt0 m c t.val t.isLt).1 j = Gpad m c (((cfg0.win 6).blk t).view.emb j)
  obtain ⟨p, q, rfl⟩ : ∃ (p : Fin 2560) (q : Fin 128), j = ix2 p q := ⟨j 0, j 1, eq_ix2 j⟩
  have hn : t.val / 500 * 2560 + p.val < 20480 := by have := p.isLt; omega
  refine (out_block m c t h1 p q hn).trans ?_
  show Gpad m c _ = Gpad m c _
  congr 1
  funext a
  apply Fin.ext
  match a with
  | ⟨0, _⟩ => show t.val / 500 * 2560 + p.val = win0_6.index t 0 * 2560 + 1 * p.val; rw [(Blocks.idx6 t).1]; omega
  | ⟨1, _⟩ => show q.val = win0_6.index t 1 * 128 + 1 * q.val; rw [(Blocks.idx6 t).2]; omega

/-- An index of the padded array is in point t's block iff each coordinate is in the block's range on its axis. -/
theorem mem_blk (t : Fin cfg0.N) (i : S20480x128.Idx) :
    i ∈ ((cfg0.win 6).blk t).view.set ↔ ∀ a : Fin 2, win0_6.index t a * S2560x128.size a ≤ (i a).val ∧ (i a).val < win0_6.index t a * S2560x128.size a + S2560x128.size a := by
  show i ∈ ((View.whole main_v3).slice (win0_6.rect t)).set ↔ _
  rw [View.set_slice_whole, Rect.mem_set_unit]
  exact Iff.rfl

/-- Row r of the padded array is in the block the last point of node block r / 2560 writes back. -/
theorem cover (i : S20480x128.Idx) : ∃ t : Fin cfg0.N, (cfg0.win 6).flush t = true ∧ i ∈ ((cfg0.win 6).blk t).view.set := by
  have hi0 : (i 0).val < 20480 := (i 0).isLt
  have hi1 : (i 1).val < 128 := (i 1).isLt
  have htv : (i 0).val / 2560 * 500 + 499 < cfg0.N := by
    rw [show cfg0.N = 4000 from N_0]; omega
  refine ⟨⟨(i 0).val / 2560 * 500 + 499, htv⟩, (flush0_6 _).mpr (by show ((i 0).val / 2560 * 500 + 499) % 500 = 499; omega), ?_⟩
  rw [mem_blk]
  intro a
  obtain ⟨e0, e1⟩ := Blocks.idx6 ⟨(i 0).val / 2560 * 500 + 499, htv⟩
  match a with
  | ⟨0, _⟩ =>
    show win0_6.index ⟨(i 0).val / 2560 * 500 + 499, htv⟩ 0 * 2560 ≤ (i 0).val ∧ (i 0).val < win0_6.index ⟨(i 0).val / 2560 * 500 + 499, htv⟩ 0 * 2560 + 2560
    rw [e0]
    show ((i 0).val / 2560 * 500 + 499) / 500 * 2560 ≤ (i 0).val ∧ (i 0).val < ((i 0).val / 2560 * 500 + 499) / 500 * 2560 + 2560
    omega
  | ⟨1, _⟩ =>
    show win0_6.index ⟨(i 0).val / 2560 * 500 + 499, htv⟩ 1 * 128 ≤ (i 1).val ∧ (i 1).val < win0_6.index ⟨(i 0).val / 2560 * 500 + 499, htv⟩ 1 * 128 + 128
    rw [e1]
    omega

/-- After the run the region's result array is the padded specification. -/
theorem final (c : Dev nD) : (dats m 0 c).arrAt 6 cfg0.N = Gpad m c :=
  (dats m 0 c).arrAt_eq_of_cover 6 (Gpad m c) (fun t hf => flushed_eq m c t hf) cover

/-- Keeping the first 20000 of 20480 rows: row n, column j of the slice is row n, column j of the array. -/
theorem slice_rows (x : FVec Ideal ⟨2, ![20480, 128]⟩ .f32) (h : S20480x128.Slices ![0, 0] S20000x128) (n : Fin 20000)
    (j : Fin 128) (hn : n.val < 20480) :
    extractStridedSlice S20000x128 ![0, 0] x h (ix2 n j) = x (ix2 (⟨n.val, hn⟩ : Fin 20480) j) := by
  refine extractStridedSlice_apply ![0, 0] x h (ix2 n j) (ix2 (⟨n.val, hn⟩ : Fin 20480) j) (fun a => ?_)
  match a with
  | ⟨0, _⟩ => show n.val = 0 + n.val; omega
  | ⟨1, _⟩ => show j.val = 0 + j.val; omega

/-- A row of the specification does not depend on how many rows are kept. -/
theorem out_row (x : FVec Ideal ⟨2, ![640000, 128]⟩ .f32) (idx : IVec ⟨1, ![640000]⟩ 32)
    (W1 : FVec Ideal ⟨2, ![128, 128]⟩ .f32) (b1 : FVec Ideal ⟨1, ![128]⟩ .f32)
    (W2 : FVec Ideal ⟨2, ![128, 128]⟩ .f32) (b2 : FVec Ideal ⟨1, ![128]⟩ .f32) (n : Fin 20000) (j : Fin 128) (hn : n.val < 20480) :
    out 20480 x idx W1 b1 W2 b2 (ix2 (⟨n.val, hn⟩ : Fin 20480) j) = out 20000 x idx W1 b1 W2 b2 (ix2 n j) := by
  rw [out_apply, out_apply]

/-- Keeping the first 20000 of the 20480 rows of the specification is the specification over 20000 rows. -/
theorem slice_out (x : FVec Ideal ⟨2, ![640000, 128]⟩ .f32) (idx : IVec ⟨1, ![640000]⟩ 32)
    (W1 : FVec Ideal ⟨2, ![128, 128]⟩ .f32) (b1 : FVec Ideal ⟨1, ![128]⟩ .f32)
    (W2 : FVec Ideal ⟨2, ![128, 128]⟩ .f32) (b2 : FVec Ideal ⟨1, ![128]⟩ .f32) (h : S20480x128.Slices ![0, 0] S20000x128) :
    extractStridedSlice S20000x128 ![0, 0] (out 20480 x idx W1 b1 W2 b2) h = out 20000 x idx W1 b1 W2 b2 := by
  funext i
  obtain ⟨n, j, rfl⟩ : ∃ (n : Fin 20000) (j : Fin 128), i = ix2 n j := ⟨i 0, i 1, eq_ix2 i⟩
  have hn : n.val < 20480 := by have := n.isLt; omega
  exact (slice_rows (out 20480 x idx W1 b1 W2 b2) h n j hn).trans (out_row x idx W1 b1 W2 b2 n j hn)

/-- What the lines after the region leave in the program's result: the slice of the padded specification. -/
theorem tail_eq (c : Dev nD) :
    Pipeline.afterTail₀ cfgs (dats m) 0 (V0 m) [hostOps1] c main_v4
      = out 20000 (xA m c) (iA m c) (w1A m c) (b1A m c) (w2A m c) (b2A m c) := by
  have hw : Pipeline.withArrays (cfgs 0).spec c (V0 m c) (fun w => (dats m 0 c).arrAt w (cfgs 0).N) (Proc.devRef .tc main_v3)
      = Gpad m c :=
    (Pipeline.withArrays_arr spec0 launch0.win.arr_inj c _ _ 6).trans (final m c)
  unfold Pipeline.afterTail₀
  show StableHlo.after hostOps1 _ (Proc.devRef .tc main_v4) = _
  after_results
  rw [hw]
  exact slice_out (xA m c) (iA m c) (w1A m c) (b1A m c) (w2A m c) (b2A m c) slices_S20480x128_S20000x128_0_0

/-- The run, read: the program's result at the specification over 20000 rows, the six arguments unchanged. -/
theorem run : θ_run defs (onTc (τ := τ) (main (F := Ideal))) ⟨m, fun _ => 0, ρ⟩ fun r => ∀ c : Dev nD,
      r.2.mem ((c.tc : Thread nD τ).loc main_v4) = out 20000 (xA m c) (iA m c) (w1A m c) (b1A m c) (w2A m c) (b2A m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v4 (Pipeline.mem_restRefs_of main_v4 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end Cert.KernelIdeal.KValue

end
-- ==== Proof.LibScatterGather2.lean ====
/-
  The accumulating scatter and the gather of a table of rows by a column of index words, read at an index.

  Both operations here take an operand of `N` rows and `C` columns and an `M × 1` column of index words, one word per
  update (or result) row: row `e` names row `idx[e, 0]` of the operand, the word read as a SIGNED integer, and the
  columns go straight across.
    • The scatter adds update row `e` into the operand row its word names, column by column, and drops it when the
      word names no row; so element `(u, j)` ends as its old value plus the sum, over the update rows whose word read
      signed is `u`, of their column `j`.
    • The gather reads, at `(e, j)`, column `j` of the operand row `e`'s word names, the word clamped into
      `[0, N − 1]`; when the word is already below `N` (and `N` is at most half the word range, so that the signed
      reading is the unsigned one) that is the row at the word itself.
  Nothing here depends on the sizes: every step is about the two axes, never about the `N`, `M` or `C` positions.
-/
import Idealize.ShloMosaic.PureOps.Ideal
import Idealize.ShloMosaic.PureOps.ShapeOps
import Idealize.ShloMosaic.PureOps.Contract
import Idealize.ShloMosaic.Lib.ValueIdx

noncomputable section

namespace Cert.LibScatterGather2

open Idealize.ShloMosaic Idealize.ShloMosaic.ValueIdx

/-! ## The scatter -/

section Scatter

variable {N C M w : Nat}

/-- Where update index `jj` starts and how far into its window it sits, axis by axis: on the row axis the start is
    the index word of `jj`'s row, read signed, and the window coordinate is zero (the axis is inserted); on the column
    axis the start is zero (no word names it) and the window coordinate is `jj`'s column. -/
theorem start_window (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) :
    d.start jj idx 0 = (idx (ix2 (n0 := M) (n1 := 1) (jj 0) 0)).toInt ∧ d.start jj idx 1 = 0
      ∧ d.window jj 0 = 0 ∧ d.window jj 1 = (jj 1).val := by
  cases d with
  | mk uw iw sd iv wf =>
    obtain rfl : uw = [1] := huw
    obtain rfl : iw = [0] := hiw
    obtain rfl : sd = [0] := hsd
    obtain rfl : iv = 1 := hivd
    refine ⟨?_, ?_, ?_, ?_⟩
    · unfold ScatterDims.start
      rw [dif_pos (List.mem_singleton.mpr rfl)]
      refine congrArg (fun k => (idx k).toInt) ?_
      funext b
      match b with
      | ⟨0, _⟩ => exact Fin.ext rfl
      | ⟨1, _⟩ => exact Fin.ext rfl
    · unfold ScatterDims.start
      rw [dif_neg (by decide : (1 : Fin 2) ∉ [0])]
    · unfold ScatterDims.window
      exact dif_neg (by decide : (0 : Fin 2) ∉ (List.finRange 2).filter (· ∉ [0]))
    · unfold ScatterDims.window
      refine (dif_pos (by decide : (1 : Fin 2) ∈ (List.finRange 2).filter (· ∉ [0]))).trans ?_
      rfl

/-- Update index `jj` lands on element `i` exactly when its row's index word, read signed, is `i`'s row and its
    column is `i`'s column. -/
theorem resultIdx?_iff (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) (i : (⟨2, ![N, C]⟩ : Shape).Idx) :
    d.resultIdx? jj idx = some i
      ↔ (idx (ix2 (n0 := M) (n1 := 1) (jj 0) 0)).toInt = ((i 0).val : ℤ) ∧ (jj 1).val = (i 1).val := by
  obtain ⟨hs0, hs1, hw0, hw1⟩ := start_window d huw hiw hsd hivd idx jj
  have hi0 : (i 0).val < N := (i 0).isLt
  have hi1 : (i 1).val < C := (i 1).isLt
  have hj1 : (jj 1).val < C := (jj 1).isLt
  unfold ScatterDims.resultIdx?
  constructor
  · intro h
    split at h
    · rename_i hc
      have hf := Option.some.inj h
      have h0 : (d.start jj idx 0 + (d.window jj 0 : ℤ)).toNat = (i 0).val := congrArg (fun f => (f 0).val) hf
      have h1 : (d.start jj idx 1 + (d.window jj 1 : ℤ)).toNat = (i 1).val := congrArg (fun f => (f 1).val) hf
      have hc0 := (hc 0).1
      rw [hs0, hw0] at hc0 h0
      rw [hs1, hw1] at h1
      constructor
      · omega
      · omega
    · exact absurd h (by simp)
  · rintro ⟨h, h'⟩
    have hc : ∀ a : Fin 2, 0 ≤ d.start jj idx a + (d.window jj a : ℤ)
        ∧ d.start jj idx a + (d.window jj a : ℤ) < ((⟨2, ![N, C]⟩ : Shape).size a : ℤ) := by
      intro a
      match a with
      | ⟨0, _⟩ =>
        show 0 ≤ d.start jj idx 0 + (d.window jj 0 : ℤ) ∧ d.start jj idx 0 + (d.window jj 0 : ℤ) < (N : ℤ)
        rw [hs0, hw0, h]
        constructor <;> omega
      | ⟨1, _⟩ =>
        show 0 ≤ d.start jj idx 1 + (d.window jj 1 : ℤ) ∧ d.start jj idx 1 + (d.window jj 1 : ℤ) < (C : ℤ)
        rw [hs1, hw1]
        constructor <;> omega
    rw [dif_pos hc]
    refine congrArg some ?_
    funext a
    match a with
    | ⟨0, _⟩ =>
      apply Fin.ext
      show (d.start jj idx 0 + (d.window jj 0 : ℤ)).toNat = (i 0).val
      rw [hs0, hw0, h]; simp
    | ⟨1, _⟩ =>
      apply Fin.ext
      show (d.start jj idx 1 + (d.window jj 1 : ℤ)).toNat = (i 1).val
      rw [hs1, hw1]; simpa using h'

/-- The accumulating scatter at element `(u, j)`: the old value plus column `j` of the update rows whose word,
    read signed, is `u`. -/
theorem scatterAdd_apply {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ)
    (u : Fin N) (j : Fin C) :
    Host.scatterAdd (F := Ideal) d x idx upd (ix2 u j)
      = x (ix2 u j) + ∑ e ∈ Finset.univ.filter (fun e : Fin M => (idx (ix2 e (0 : Fin 1))).toInt = (u.val : ℤ)),
          upd (ix2 e j) := by
  show Ideal.hostScatterAdd d x idx upd (ix2 u j) = _
  unfold Ideal.hostScatterAdd
  refine congrArg (x (ix2 u j) + ·) ?_
  symm
  refine Finset.sum_bij (fun e _ => ix2 e j) ?_ ?_ ?_ (fun _ _ => rfl)
  · intro e he
    rw [Finset.mem_filter] at he ⊢
    exact ⟨Finset.mem_univ _, (resultIdx?_iff d huw hiw hsd hivd idx (ix2 e j) (ix2 u j)).mpr ⟨he.2, rfl⟩⟩
  · intro e _ e' _ h
    exact congrFun h 0
  · intro jj hjj
    rw [Finset.mem_filter] at hjj
    obtain ⟨h, h'⟩ := (resultIdx?_iff d huw hiw hsd hivd idx jj (ix2 u j)).mp hjj.2
    refine ⟨jj 0, Finset.mem_filter.mpr ⟨Finset.mem_univ _, h⟩, ?_⟩
    rw [eq_ix2 jj]
    refine congrArg (ix2 (jj 0)) (Fin.ext ?_)
    exact h'.symm

end Scatter

/-! ## The gather -/

section Gather

variable {α : Type} {N C M w : Nat}

/-- The gather at `(e, j)`, whatever the word: column `j` of the row at the word read signed and clamped. -/
theorem gather_apply_clamp (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C) (hN : 0 < N) :
    Host.gather d x idx (ix2 e j)
      = x (ix2 ⟨min (idx (ix2 e (0 : Fin 1))).toInt.toNat (N - 1), by omega⟩ j) := by
  have hsl : d.sliceSizes 0 = 1 := d.slice_collapsed 0 (by rw [hcoll]; exact List.mem_singleton.mpr rfl)
  unfold Host.gather
  refine congrArg x ?_
  cases d with
  | mk od cd ob sb sm iv ss wf =>
    obtain rfl : od = [1] := hoff
    obtain rfl : cd = [0] := hcoll
    obtain rfl : ob = [] := hob
    obtain rfl : sm = [0] := hsim
    obtain rfl : iv = 1 := hivd
    replace hsl : ss 0 = 1 := hsl
    funext a
    match a with
    | ⟨0, _⟩ =>
      apply Fin.ext
      show GatherDims.start _ (ix2 e j) idx 0 + GatherDims.batchCoord _ (ix2 e j) 0 + GatherDims.offCoord _ (ix2 e j) 0
        = min (idx (ix2 e (0 : Fin 1))).toInt.toNat (N - 1)
      rw [GatherDims.batchCoord_eq_zero _ _ _ List.not_mem_nil,
        GatherDims.offCoord_eq_zero _ _ _ (by decide : (0 : Fin 2) ∉ (List.finRange 2).filter (· ∉ [0] ++ []))]
      simp only [Nat.add_zero]
      unfold GatherDims.start
      rw [dif_pos (List.mem_singleton.mpr rfl)]
      show min (idx _).toInt.toNat (N - ss 0) = _
      rw [hsl]
      refine congrArg (fun k => min (idx k).toInt.toNat (N - 1)) ?_
      funext b
      match b with
      | ⟨0, _⟩ => exact Fin.ext rfl
      | ⟨1, _⟩ => exact Fin.ext rfl
    | ⟨1, _⟩ =>
      apply Fin.ext
      show GatherDims.start _ (ix2 e j) idx 1 + GatherDims.batchCoord _ (ix2 e j) 1 + GatherDims.offCoord _ (ix2 e j) 1
        = j.val
      rw [GatherDims.batchCoord_eq_zero _ _ _ List.not_mem_nil]
      simp only [Nat.add_zero]
      unfold GatherDims.start
      rw [dif_neg (by decide : (1 : Fin 2) ∉ [0]), Nat.zero_add]
      unfold GatherDims.offCoord
      refine (dif_pos (by decide : (1 : Fin 2) ∈ (List.finRange 2).filter (· ∉ [0] ++ []))).trans ?_
      rfl

/-- The gather at `(e, j)` when the word is a row's position: column `j` of that row. -/
theorem gather_apply (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C)
    (hN : 2 * N ≤ 2 ^ w) (h : (idx (ix2 e (0 : Fin 1))).toNat < N) :
    Host.gather d x idx (ix2 e j) = x (ix2 ⟨(idx (ix2 e (0 : Fin 1))).toNat, h⟩ j) := by
  have hN0 : 0 < N := by omega
  rw [gather_apply_clamp d hoff hcoll hob hsim hivd x idx e j hN0]
  refine congrArg x (congrArg (fun r => ix2 r j) (Fin.ext ?_))
  show min (idx (ix2 e (0 : Fin 1))).toInt.toNat (N - 1) = (idx (ix2 e (0 : Fin 1))).toNat
  rw [BitVec.toInt_eq_toNat_of_lt (by omega), Int.toNat_natCast]
  omega

end Gather

end Cert.LibScatterGather2

end
-- ==== Proof.RefValue.lean ====
/-
  The reference's result is the specification.

  The reference scatters the edge rows into a zero table by their index words (row n of the table ends as zero plus
  the sum of the edge rows whose word, read signed, is n: the segment sum), multiplies by W1 and adds b1, takes the
  maximum with zero, multiplies by W2 and adds b2. Read at (n, j), with each matrix product written as the plain sum
  over its one contracted axis and each broadcast read at its source element, that is the perceptron of row n of the
  segment sum.
-/
import proofs.«414368_j34737695490534_1_alg».proof.Proof.Gen.ReferenceIdeal.Run
import proofs.«414368_j34737695490534_1_alg».proof.Proof.Gen.ReferenceIdeal.Read
import proofs.«414368_j34737695490534_1_alg».proof.Proof.Spec
import proofs.«414368_j34737695490534_1_alg».proof.Proof.LibPlainDot
import proofs.«414368_j34737695490534_1_alg».proof.Proof.LibScatterGather2
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.Read Cert.SegMlp
open scoped BigOperators

/-- Row `n`, column `d` of the scattered table: the zero entry plus the edge rows whose word is `n`, which is the
    segment sum. -/
theorem v2_apply (x0 : (⟨S640000x128, .f32⟩ : BufTy).Contents (Elt Ideal)) (x1 : (⟨S640000, .i32⟩ : BufTy).Contents (Elt Ideal))
    (n : Fin 20000) (d : Fin 128) :
    val_main_v2 (F := Ideal) x0 x1 (ix2 n d) = seg x0 (fun e => x1 (ix1 e)) n.val d := by
  unfold val_main_v2
  refine (Cert.LibScatterGather2.scatterAdd_apply scatter_S20000x128_S640000x1_S640000x128_1_0_0_1 rfl rfl rfl rfl
    (val_main_v0 (F := Ideal)) (val_main_v1 (F := Ideal) x1) x0 n d).trans ?_
  have hz : val_main_v0 (F := Ideal) (ix2 n d) = 0 :=
    (val_main_v0_apply (F := Ideal) (ix2 n d)).trans ((val_main_cst_apply (F := Ideal) _).trans Ideal.ofBits_zero_f32)
  have hw : ∀ e : Fin 640000, val_main_v1 (F := Ideal) x1 (ix2 e (0 : Fin 1)) = x1 (ix1 e) := fun e =>
    (val_main_v1_apply (F := Ideal) x1 (ix2 e (0 : Fin 1))).trans
      (congrArg x1 (funext fun a => Fin.ext (by match a with | ⟨0, _⟩ => rfl)))
  rw [hz, zero_add]
  unfold seg
  refine Finset.sum_congr ?_ fun e _ => rfl
  refine Finset.filter_congr fun e _ => ?_
  rw [hw e]

/-- Row `n`, column `k` of the first product: the segment sum's row `n` against column `k` of `W1`. -/
theorem v3_apply (x0 : (⟨S640000x128, .f32⟩ : BufTy).Contents (Elt Ideal)) (x1 : (⟨S640000, .i32⟩ : BufTy).Contents (Elt Ideal))
    (x2 : (⟨S128x128, .f32⟩ : BufTy).Contents (Elt Ideal)) (n : Fin 20000) (k : Fin 128) :
    val_main_v3 (F := Ideal) x0 x1 x2 (ix2 n k)
      = ∑ d : Fin 128, seg x0 (fun e => x1 (ix1 e)) n.val d * x2 (ix2 d k) := by
  refine (val_main_v3_apply x0 x1 x2 (ix2 n k)).trans ?_
  refine Finset.sum_congr rfl fun d _ => ?_
  have el : lidx_main_v3 (ix2 n k) d = ix2 n d :=
    funext fun a => Fin.ext (by match a with | ⟨0, _⟩ => rfl | ⟨1, _⟩ => rfl)
  have er : ridx_main_v3 (ix2 n k) d = ix2 d k :=
    funext fun a => Fin.ext (by match a with | ⟨0, _⟩ => rfl | ⟨1, _⟩ => rfl)
  rw [el, er, v2_apply]

/-- The first bias, broadcast over the rows, read at `(n, k)`: entry `k` of the vector. -/
theorem v5_apply (x3 : (⟨S128, .f32⟩ : BufTy).Contents (Elt Ideal)) (n : Fin 20000) (k : Fin 128) :
    val_main_v5 (F := Ideal) x3 (ix2 n k) = x3 (ix1 k) :=
  (val_main_v5_apply (F := Ideal) x3 (ix2 n k)).trans
    ((val_main_v4_apply (F := Ideal) x3 _).trans
      (congrArg x3 (funext fun a => Fin.ext (by match a with | ⟨0, _⟩ => rfl))))

/-- The second bias, broadcast over the rows, read at `(n, j)`: entry `j` of the vector. -/
theorem v10_apply (x5 : (⟨S128, .f32⟩ : BufTy).Contents (Elt Ideal)) (n : Fin 20000) (j : Fin 128) :
    val_main_v10 (F := Ideal) x5 (ix2 n j) = x5 (ix1 j) :=
  (val_main_v10_apply (F := Ideal) x5 (ix2 n j)).trans
    ((val_main_v9_apply (F := Ideal) x5 _).trans
      (congrArg x5 (funext fun a => Fin.ext (by match a with | ⟨0, _⟩ => rfl))))

/-- The hidden layer at `(n, k)`: the maximum of the first affine map with the zero word. -/
theorem v7_apply (x0 : (⟨S640000x128, .f32⟩ : BufTy).Contents (Elt Ideal)) (x1 : (⟨S640000, .i32⟩ : BufTy).Contents (Elt Ideal))
    (x2 : (⟨S128x128, .f32⟩ : BufTy).Contents (Elt Ideal)) (x3 : (⟨S128, .f32⟩ : BufTy).Contents (Elt Ideal))
    (n : Fin 20000) (k : Fin 128) :
    val_main_v7 (F := Ideal) x0 x1 x2 x3 (ix2 n k)
      = max ((∑ d : Fin 128, seg x0 (fun e => x1 (ix1 e)) n.val d * x2 (ix2 d k)) + x3 (ix1 k)) z32 := by
  have hc : val_main_call0_v0 (F := Ideal) (ix2 n k) = z32 :=
    (val_main_call0_v0_apply (F := Ideal) (ix2 n k)).trans (val_main_call0_cst_apply (F := Ideal) _)
  have h6 : val_main_v6 (F := Ideal) x0 x1 x2 x3 (ix2 n k)
      = (∑ d : Fin 128, seg x0 (fun e => x1 (ix1 e)) n.val d * x2 (ix2 d k)) + x3 (ix1 k) := by
    refine (val_main_v6_apply (F := Ideal) x0 x1 x2 x3 (ix2 n k)).trans ?_
    rw [v3_apply, v5_apply]
    rfl
  refine (val_main_v7_apply (F := Ideal) x0 x1 x2 x3 (ix2 n k)).trans ?_
  rw [h6, hc]
  rfl

/-- The reference's last stage, as a function of the six argument arrays, is the specification over 20000 rows. -/
theorem ref_eq (x0 : (⟨S640000x128, .f32⟩ : BufTy).Contents (Elt Ideal)) (x1 : (⟨S640000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v11 (F := Ideal) x0 x1 x2 x3 x4 x5 = out 20000 x0 x1 x2 x3 x4 x5 := by
  funext i
  obtain ⟨n, j, rfl⟩ : ∃ (n : Fin 20000) (j : Fin 128), i = ix2 n j := ⟨i 0, i 1, eq_ix2 i⟩
  rw [out_apply]
  unfold mlp
  have h8 : val_main_v8 (F := Ideal) x0 x1 x2 x3 x4 (ix2 n j)
      = ∑ k : Fin 128, max ((∑ d : Fin 128, seg x0 (fun e => x1 (ix1 e)) n.val d * x2 (ix2 d k)) + x3 (ix1 k)) z32
          * x4 (ix2 k j) := by
    refine (val_main_v8_apply x0 x1 x2 x3 x4 (ix2 n j)).trans ?_
    refine Finset.sum_congr rfl fun k _ => ?_
    have el : lidx_main_v8 (ix2 n j) k = ix2 n k :=
      funext fun a => Fin.ext (by match a with | ⟨0, _⟩ => rfl | ⟨1, _⟩ => rfl)
    have er : ridx_main_v8 (ix2 n j) k = ix2 k j :=
      funext fun a => Fin.ext (by match a with | ⟨0, _⟩ => rfl | ⟨1, _⟩ => rfl)
    rw [el, er, v7_apply]
  refine (val_main_v11_apply (F := Ideal) x0 x1 x2 x3 x4 x5 (ix2 n j)).trans ?_
  rw [h8, v10_apply]
  rfl

end Cert.ReferenceIdeal.RefValue

end
-- ==== Proof.lean ====
/-
  The certificate: the one-hot segment-sum kernel with its fused two-layer perceptron, against the scatter-add
  reference.

  Both programs compute, at node n and column j,
      (the sum over k of max(seg[n, :] · W1[:, k] + b1[k], 0) · W2[k, j]) + b2[j],
  where seg[n, d] is the sum of x[e, d] over the edges e whose index word, read signed, is n. The reference gets seg by
  a scatter-add into a zero table; the kernel by multiplying, for each block of 2560 nodes and each block of 1280
  edges, the 0/1 matrix "edge e names node n" with the edge block and accumulating over the 500 edge blocks, which on
  the extended reals is the same sum (0 · v = 0 and 1 · v = v for every v, and addition is commutative and
  associative). The kernel works on 20480 padded node rows and keeps the first 20000; an index word that names no node
  row contributes nothing on either side. No finiteness of the inputs is used.

  The kernel's frames are the generated ones; the reference's frame is its generated run with the result dropped; the
  idealization rewrote nothing, so `preserves` is trivial; `algebraic` puts the kernel's run (KValue.run) beside
  the reference's generated run, both ending at the specification `SegMlp.out 20000` of the agreeing arguments.
-/
import proofs.«414368_j34737695490534_1_alg».proof.Defs
import proofs.«414368_j34737695490534_1_alg».proof.Proof.Gen.Kernel
import proofs.«414368_j34737695490534_1_alg».proof.Proof.Gen.Kernel.Skeleton
import proofs.«414368_j34737695490534_1_alg».proof.Proof.Gen.Kernel.Launch
import proofs.«414368_j34737695490534_1_alg».proof.Proof.Gen.Kernel.Points
import proofs.«414368_j34737695490534_1_alg».proof.Proof.Gen.Kernel.Frame
import proofs.«414368_j34737695490534_1_alg».proof.Proof.Gen.KernelIdeal
import proofs.«414368_j34737695490534_1_alg».proof.Proof.Gen.KernelIdeal.Skeleton
import proofs.«414368_j34737695490534_1_alg».proof.Proof.Gen.KernelIdeal.Launch
import proofs.«414368_j34737695490534_1_alg».proof.Proof.Gen.KernelIdeal.Points
import proofs.«414368_j34737695490534_1_alg».proof.Proof.Gen.KernelIdeal.Frame
import proofs.«414368_j34737695490534_1_alg».proof.Proof.Gen.ReferenceIdeal
import proofs.«414368_j34737695490534_1_alg».proof.Proof.Gen.ReferenceIdeal.Run
import proofs.«414368_j34737695490534_1_alg».proof.Proof.Gen.ReferenceIdeal.Read
import proofs.«414368_j34737695490534_1_alg».proof.Proof.Gen.Pre_finite_inputs
import proofs.«414368_j34737695490534_1_alg».proof.Proof.KValue
import proofs.«414368_j34737695490534_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the specification over 20000 rows of the arguments, which agree. -/
theorem algebraic : Cert.algebraic_KernelIdeal_ReferenceIdeal := by
  intro m ρ m' ρ' _ hagree
  refine ⟨fun c => Cert.SegMlp.out 20000 (Cert.KernelIdeal.Accum.xA m c) (Cert.KernelIdeal.Accum.iA m c)
      (Cert.KernelIdeal.Accum.w1A m c) (Cert.KernelIdeal.Accum.b1A m c) (Cert.KernelIdeal.Accum.w2A m c)
      (Cert.KernelIdeal.Accum.b2A m c), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.ref_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
